-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1024x256 : Shape := ⟨2, ![1024, 256]⟩
abbrev S1024 : Shape := ⟨1, ![1024]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x256 .f32) (main_arg1 : FVec F S1024x256 .f32) (main_arg2 : FVec F S1024 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16384x256 : Shape := ⟨2, ![16384, 256]⟩
abbrev S1024x256 : Shape := ⟨2, ![1024, 256]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1024 : Shape := ⟨2, ![16384, 1024]⟩
abbrev S1024x1 : Shape := ⟨2, ![1024, 1]⟩
abbrev S1024x1024 : Shape := ⟨2, ![1024, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x1, .f32⟩
  | .local _ .vmem, ⟨4, _⟩ => ⟨S1024x1, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S1024x256_S1024_d1 : S1024x256.ReducesTo [1] S1024
  bcast_S1024_S1x1024_1 : S1024.BroadcastsInDim S1x1024 (![1] : Fin 1 → Fin S1x1024.rank)
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x1024.size a
  hwx0_5 : ∀ i : grid0.Coords, EltTy.bits .f32 = 32 ∨ (Rect.block (s := S16384x1024) S1024x1024.size (cc0_transform_5 i) (hinb0_5 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x256 : Shape := ⟨2, ![16384, 256]⟩
abbrev S1024x256 : Shape := ⟨2, ![1024, 256]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x1024 : Shape := ⟨2, ![16384, 1024]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S1024, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S1024x256_S1024_d1 : S1024x256.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x256_S1024x256_S16384x1024_1_1_0_0_n_n_wf : DotDims.WF S16384x256 S1024x256 S16384x1024 [1] [1] [0] [0] [] []

variable [Facts₀]

def dot_S16384x256_S1024x256_S16384x1024_1_1_0_0_n_n : DotDims S16384x256 S1024x256 S16384x1024 where
  lhsContracting := [1]
  rhsContracting := [1]
  lhsNonContracting := [0]
  rhsNonContracting := [0]
  lhsBatch := []
  rhsBatch := []
  wf := dot_S16384x256_S1024x256_S16384x1024_1_1_0_0_n_n_wf

class Facts : Prop extends Facts₀ where

variable [Facts]
-- ==== Proof.RbfSpec.lean ====
/-
  The radial basis layer as one function.

  For a row `p` of the data and a centre `q`, the layer's value is
      exp ( (0 - β_q) · ( (‖x_p‖² + ‖c_q‖²) - 2 · Σ_d x_{p,d} · c_{q,d} ) )
  on the extended reals: the squared distance ‖x_p - c_q‖² expanded, scaled by the negated width β_q, then the
  exponential. The two squared norms and the row of widths enter as arrays of their own (a column [16384, 1] and
  two rows [1, 1024]): both programs compute them by the same operations before anything else happens, so nothing
  about how they are computed is needed, only where they are read.
  The factor 2 is the float word 0x40000000 on both sides and is never evaluated.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The layer's value at row `p` and centre `q`: `exp ((0 - β_q) · ((‖x_p‖² + ‖c_q‖²) - 2 · ⟨x_p, c_q⟩))`, the inner
    product a sum over the 256 features. -/
def rbfAt (x : FVec Ideal ⟨2, ![16384, 256]⟩ .f32) (c : FVec Ideal ⟨2, ![1024, 256]⟩ .f32)
    (xsq : FVec Ideal ⟨2, ![16384, 1]⟩ .f32) (csq : FVec Ideal ⟨2, ![1, 1024]⟩ .f32) (beta : FVec Ideal ⟨2, ![1, 1024]⟩ .f32)
    (p : Fin 16384) (q : Fin 1024) : EReal :=
  Ideal.exp ((0 - beta (ix2 (0 : Fin 1) q))
    * ((xsq (ix2 p (0 : Fin 1)) + csq (ix2 (0 : Fin 1) q))
        - Ideal.ofBits .f32 0x40000000#32 * ∑ k : Fin 256, x (ix2 p k) * c (ix2 q k)))

/-- The whole [16384, 1024] array of layer values. -/
def G (x : FVec Ideal ⟨2, ![16384, 256]⟩ .f32) (c : FVec Ideal ⟨2, ![1024, 256]⟩ .f32)
    (xsq : FVec Ideal ⟨2, ![16384, 1]⟩ .f32) (csq : FVec Ideal ⟨2, ![1, 1024]⟩ .f32) (beta : FVec Ideal ⟨2, ![1, 1024]⟩ .f32) :
    FVec Ideal ⟨2, ![16384, 1024]⟩ .f32 :=
  fun i => rbfAt x c xsq csq beta (i 0) (i 1)

theorem G_apply (x : FVec Ideal ⟨2, ![16384, 256]⟩ .f32) (c : FVec Ideal ⟨2, ![1024, 256]⟩ .f32)
    (xsq : FVec Ideal ⟨2, ![16384, 1]⟩ .f32) (csq : FVec Ideal ⟨2, ![1, 1024]⟩ .f32) (beta : FVec Ideal ⟨2, ![1, 1024]⟩ .f32)
    (p : Fin 16384) (q : Fin 1024) : G x c xsq csq beta (ix2 p q) = rbfAt x c xsq csq beta p q := rfl

/-- Subtracting from zero is negating, on every extended real (the infinities included: `0 + (-⊤) = ⊥ = -⊤`). -/
theorem zero_sub_eq_neg (b : EReal) : (0 : EReal) - b = -b := zero_sub b

end Cert.Rbf

end
-- ==== Proof.BlockValue.lean ====
/-
  One block of the layer, read at an index.

  At a grid point the body holds a block of 1024 data rows `xb` ([1024, 256]), all 1024 centres `cb` ([1024, 256]),
  the rows' squared norms as a column `xs` ([1024, 1]), the centres' squared norms and the widths as rows `cs`, `bs`
  ([1, 1024]). What it stores at row `p`, column `q` of its [1024, 1024] block is
      exp ((0 - bs_q) · ((xs_p + cs_q) - 2 · Σ_d xb_{p,d} · cb_{q,d})).
  The narrowing of both matrix operands to bf16 is the identity on extended reals; the matrix product contracts the
  last axis of BOTH operands into a zero accumulator, so it is the plain sum of products over the 256 features; the
  column is broadcast along columns and the two rows along rows.
-/
import proofs.«173492_j44521630990797_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## A column broadcast along columns -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product: rows of the data block against rows of the centres -/

/-- The left operand is read at the output's row … -/
theorem lhs_row (i : S1024x1024.Idx) (r : dot_S1024x256_S1024x256_S1024x1024_1_1_0_0_n_n.contr.Idx) :
    (dot_S1024x256_S1024x256_S1024x1024_1_1_0_0_n_n.lhsIdx i r 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
/-- … and the contracted feature; -/
theorem lhs_feature (i : S1024x1024.Idx) (r : dot_S1024x256_S1024x256_S1024x1024_1_1_0_0_n_n.contr.Idx) :
    (dot_S1024x256_S1024x256_S1024x1024_1_1_0_0_n_n.lhsIdx i r 1).val = (r ⟨0, by decide⟩).val :=
  dot_S1024x256_S1024x256_S1024x1024_1_1_0_0_n_n.lhsIdx_val_of_single rfl i r
/-- the right operand at the output's COLUMN (a centre's number), as its row, … -/
theorem rhs_row (i : S1024x1024.Idx) (r : dot_S1024x256_S1024x256_S1024x1024_1_1_0_0_n_n.contr.Idx) :
    (dot_S1024x256_S1024x256_S1024x1024_1_1_0_0_n_n.rhsIdx i r 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
/-- … and the same feature. -/
theorem rhs_feature (i : S1024x1024.Idx) (r : dot_S1024x256_S1024x256_S1024x1024_1_1_0_0_n_n.contr.Idx) :
    (dot_S1024x256_S1024x256_S1024x1024_1_1_0_0_n_n.rhsIdx i r 1).val = (r ⟨0, by decide⟩).val :=
  dot_S1024x256_S1024x256_S1024x1024_1_1_0_0_n_n.rhsIdx_val_of_single rfl i r

/-- Into the zero accumulator the product at `(p, q)` is `Σ_d a_{p,d} · b_{q,d}`. -/
theorem matmul_at {φ₁ φ₂ : FTy} (a : FVec Ideal S1024x256 φ₁) (b : FVec Ideal S1024x256 φ₂) (p q : Fin 1024) :
    FloatOps.matmul dot_S1024x256_S1024x256_S1024x1024_1_1_0_0_n_n none a b (constant (F := Ideal) S1024x1024 .f32 0x00000000#32) (ix2 p q)
      = ∑ k : Fin 256, a (ix2 p k) * b (ix2 q k) := by
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun ax => Fin.ext (by
    match ax with
    | ⟨0, _⟩ => exact lhs_row _ _
    | ⟨1, _⟩ => exact (lhs_feature _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun ax => Fin.ext (by
    match ax with
    | ⟨0, _⟩ => exact rhs_row _ _
    | ⟨1, _⟩ => exact (rhs_feature _ _).trans hk)
  rw [el, er]

/-! ## The stored value -/

/-- What the body stores at `(p, q)` of its block, from the five blocks it loads. -/
theorem pay_at (xb cb : Vec Ideal S1024x256 .f32) (xs : Vec Ideal S1024x1 .f32) (cs bs : Vec Ideal S1x1024 .f32) (p q : Fin 1024) :
    k0_pay1 (F := Ideal) xb cb xs cs bs (ix2 p q)
      = Ideal.exp ((0 - bs (ix2 (0 : Fin 1) q))
          * ((xs (ix2 p (0 : Fin 1)) + cs (ix2 (0 : Fin 1) q))
              - Ideal.ofBits .f32 0x40000000#32 * ∑ k : Fin 256, xb (ix2 p k) * cb (ix2 q k))) := by
  unfold k0_pay1
  have hb : broadcastTo S1024x1024 (subf (broadcast S1x1024 (FloatOps.ofBits (F := Ideal) .f32 0x00000000#32)) (shapeCast S1x1024 bs shapeCasts_S1x1024_S1x1024)) broadcasts_S1x1024_S1024x1024 (ix2 p q)
      = 0 - bs (ix2 (0 : Fin 1) q) := by
    rw [broadcastTo_1b_ab_apply, shapeCast_self]
    show Ideal.ofBits .f32 0x00000000#32 - bs (ix2 (0 : Fin 1) q) = _
    rw [Ideal.ofBits_zero_f32]
  have hx : broadcastTo S1024x1024 (shapeCast S1024x1 xs shapeCasts_S1024x1_S1024x1) broadcasts_S1024x1_S1024x1024 (ix2 p q)
      = xs (ix2 p (0 : Fin 1)) := by
    rw [broadcastTo_a1_ab_apply, shapeCast_self]
  have hc : broadcastTo S1024x1024 (shapeCast S1x1024 cs shapeCasts_S1x1024_S1x1024) broadcasts_S1x1024_S1024x1024 (ix2 p q)
      = cs (ix2 (0 : Fin 1) q) := by
    rw [broadcastTo_1b_ab_apply, shapeCast_self]
  have hm : FloatOps.matmul dot_S1024x256_S1024x256_S1024x1024_1_1_0_0_n_n none (truncf .bf16 xb bitsLt_bf16_f32) (truncf .bf16 cb bitsLt_bf16_f32) (constant (F := Ideal) S1024x1024 .f32 0x00000000#32) (ix2 p q)
      = ∑ k : Fin 256, xb (ix2 p k) * cb (ix2 q k) :=
    matmul_at (truncf .bf16 xb bitsLt_bf16_f32) (truncf .bf16 cb bitsLt_bf16_f32) p q
  exact congrArg Ideal.exp (congrArg₂ (· * ·) hb
    (congrArg₂ (· - ·) (congrArg₂ (· + ·) hx hc) (congrArg (Ideal.ofBits .f32 0x40000000#32 * ·) hm)))

end Cert.KernelIdeal.BlockValue

end
-- ==== Proof.KernelArray.lean ====
/-
  The whole output array of the kernel.

  The grid has 16 points; point `t` works on data rows 1024·t … 1024·t + 1023. Its block of the data and of the
  column of squared row norms are those rows; the centres, their squared norms and the widths are the same whole
  arrays at every point. So what point `t` writes back is exactly the rows 1024·t … of the layer function `G`
  of the five arrays the region finds, all 1024 columns; the 16 row bands tile the [16384, 1024] output, hence
  after the run the output array IS `G`. The column of squared row norms, the row of squared centre norms and the
  row of widths are what the host wrote before the region: a sum of squares along the features, laid out as a
  column, resp. a row, and the widths laid out as a row.
-/
import proofs.«173492_j44521630990797_1_alg».proof.Proof.Gen.KernelIdeal.Value
import proofs.«173492_j44521630990797_1_alg».proof.Proof.RbfSpec
import proofs.«173492_j44521630990797_1_alg».proof.Proof.BlockValue
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.RbfArray

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One block is a band of rows of the layer function -/

/-- If the data block and the norm column are the rows `r·1024 + ·` of their arrays, the other three blocks the whole
    arrays, and the output block the same rows of the output, then the stored block is that band of `G`. Each block is
    given as its array read through an embedding of block indices into array indices. -/
theorem block_eq
    (X : FVec Ideal S16384x256 .f32) (C : FVec Ideal S1024x256 .f32) (XS : FVec Ideal S16384x1 .f32) (CS BS : FVec Ideal S1x1024 .f32)
    (r : ℕ)
    (e0 : S1024x256.Idx → S16384x256.Idx) (he0 : ∀ y, (e0 y 0).val = r * 1024 + (y 0).val ∧ (e0 y 1).val = (y 1).val)
    (e1 : S1024x256.Idx → S1024x256.Idx) (he1 : ∀ y, e1 y = y)
    (e2 : S1024x1.Idx → S16384x1.Idx) (he2 : ∀ y, (e2 y 0).val = r * 1024 + (y 0).val)
    (e3 : S1x1024.Idx → S1x1024.Idx) (he3 : ∀ y, e3 y = y)
    (e4 : S1x1024.Idx → S1x1024.Idx) (he4 : ∀ y, e4 y = y)
    (e5 : S1024x1024.Idx → S16384x1024.Idx) (he5 : ∀ y, (e5 y 0).val = r * 1024 + (y 0).val ∧ (e5 y 1).val = (y 1).val)
    (j : S1024x1024.Idx) :
    k0_pay1 (F := Ideal) (fun y => X (e0 y)) (fun y => C (e1 y)) (fun y => XS (e2 y)) (fun y => CS (e3 y)) (fun y => BS (e4 y)) j
      = Cert.Rbf.G X C XS CS BS (e5 j) := by
  obtain ⟨p, q, rfl⟩ : ∃ (p q : Fin 1024), j = ix2 p q := ⟨j 0, j 1, eq_ix2 j⟩
  rw [BlockValue.pay_at]
  obtain ⟨h50, h51⟩ := he5 (ix2 p q)
  have hq : (e5 (ix2 p q)) 1 = q := Fin.ext h51
  have h0 : ((e5 (ix2 p q)) 0).val = r * 1024 + p.val := h50
  show _ = Cert.Rbf.rbfAt X C XS CS BS (e5 (ix2 p q) 0) (e5 (ix2 p q) 1)
  unfold Cert.Rbf.rbfAt
  rw [hq]
  have hX : ∀ k : Fin 256, e0 (ix2 p k) = ix2 (e5 (ix2 p q) 0) k := fun k => funext fun a => Fin.ext (by
    match a with
    | ⟨0, _⟩ => exact (he0 (ix2 p k)).1.trans h0.symm
    | ⟨1, _⟩ => exact (he0 (ix2 p k)).2)
  have hXS : e2 (ix2 p (0 : Fin 1)) = ix2 (e5 (ix2 p q) 0) (0 : Fin 1) := funext fun a => Fin.ext (by
    match a with
    | ⟨0, _⟩ => exact (he2 (ix2 p (0 : Fin 1))).trans h0.symm
    | ⟨1, _⟩ =>
      have h1 := idx2_lt1 (e2 (ix2 p (0 : Fin 1)))
      show (e2 (ix2 p (0 : Fin 1)) 1).val = 0
      omega)
  simp only [hX, hXS, he1, he3, he4]
  rfl

/-! ## The index maps over the grid -/

/-- The data and the norm column move with the output's row band; the other three windows stay at their one block;
    the output's column block is always the first (decided over the 16 points). -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every one of the 16 row bands is some point's. -/
theorem idx_onto : ∀ b : Fin 16, ∃ t : Fin cfg0.N, win0_5.index t (0 : Fin 2) = b.val :=
  (by decide +kernel : ∀ b : Fin 16, ∃ t : Fin grid0.N, win0_5.index t (0 : Fin 2) = b.val)

/-! ## What a point writes back -/

/-- Point `t` writes back block `t` of `G` of the arrays as the region finds them. -/
theorem flushed_eq (c : Dev nD) (t : Fin cfg0.N) :
    (dats m 0 c).flushed 5 t = ((cfg0.win 5).blk t).view.read (Elt Ideal)
      (Cert.Rbf.G (V m c main_arg0) (V m c main_arg1) (V m c main_v2) (V m c main_v5) (V m c main_v6)) := by
  rw [Value.flushed5]
  unfold out0_5
  rw [View.canon_unit_zero hz]
  simp only [View.ld_unit_zero (S := S1024x256) hz, View.ld_unit_zero (S := S1024x1) hz, View.ld_unit_zero (S := S1x1024) hz]
  obtain ⟨a00, a01, a10, a11, a20, a21, a30, a31, a40, a41, a51⟩ := idx_facts t
  funext j
  exact block_eq (V m c main_arg0) (V m c main_arg1) (V m c main_v2) (V m c main_v5) (V m c main_v6) (win0_5.index t (0 : Fin 2))
    ((cfg0.win 0).blk t).view.emb (fun y => ⟨by
        show win0_0.index t (0 : Fin 2) * 1024 + 1 * (y 0).val = win0_5.index t (0 : Fin 2) * 1024 + (y 0).val
        omega, by
        show win0_0.index t (1 : Fin 2) * 256 + 1 * (y 1).val = (y 1).val
        omega⟩)
    ((cfg0.win 1).blk t).view.emb (fun y => funext fun a => Fin.ext (by
        match a with
        | ⟨0, _⟩ => show win0_1.index t (0 : Fin 2) * 1024 + 1 * (y 0).val = (y 0).val; omega
        | ⟨1, _⟩ => show win0_1.index t (1 : Fin 2) * 256 + 1 * (y 1).val = (y 1).val; omega))
    ((cfg0.win 2).blk t).view.emb (fun y => by
        show win0_2.index t (0 : Fin 2) * 1024 + 1 * (y 0).val = win0_5.index t (0 : Fin 2) * 1024 + (y 0).val
        omega)
    ((cfg0.win 3).blk t).view.emb (fun y => funext fun a => Fin.ext (by
        match a with
        | ⟨0, _⟩ => show win0_3.index t (0 : Fin 2) * 1 + 1 * (y 0).val = (y 0).val; omega
        | ⟨1, _⟩ => show win0_3.index t (1 : Fin 2) * 1024 + 1 * (y 1).val = (y 1).val; omega))
    ((cfg0.win 4).blk t).view.emb (fun y => funext fun a => Fin.ext (by
        match a with
        | ⟨0, _⟩ => show win0_4.index t (0 : Fin 2) * 1 + 1 * (y 0).val = (y 0).val; omega
        | ⟨1, _⟩ => show win0_4.index t (1 : Fin 2) * 1024 + 1 * (y 1).val = (y 1).val; omega))
    ((cfg0.win 5).blk t).view.emb (fun y => ⟨by
        show win0_5.index t (0 : Fin 2) * 1024 + 1 * (y 0).val = win0_5.index t (0 : Fin 2) * 1024 + (y 0).val
        omega, by
        show win0_5.index t (1 : Fin 2) * 1024 + 1 * (y 1).val = (y 1).val
        omega⟩)
    j

/-! ## The row bands tile the output -/

/-- An index of the output is in point `t`'s block iff each coordinate is in the block's range on its axis. -/
theorem mem_blk (t : Fin cfg0.N) (i : S16384x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v7).slice (win0_5.rect t)).set ↔ _
  rw [View.set_slice_whole, Rect.mem_set_unit]
  exact Iff.rfl

/-- Every index of the output lies in the block of the point whose band holds its row: row `i₀` is in band `i₀ / 1024`. -/
theorem cover (i : S16384x1024.Idx) :
    ∃ t : Fin cfg0.N, (cfg0.win 5).flush t = true ∧ i ∈ ((cfg0.win 5).blk t).view.set := by
  have hi0 : (i 0).val < 16384 := idx2_lt0 i
  have hi1 : (i 1).val < 1024 := idx2_lt1 i
  obtain ⟨t, ht⟩ := idx_onto ⟨(i 0).val / 1024, by omega⟩
  have hb : win0_5.index t (0 : Fin 2) = (i 0).val / 1024 := ht
  obtain ⟨-, -, -, -, -, -, -, -, -, -, a51⟩ := idx_facts t
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1024 ≤ (i 1).val ∧ (i 1).val < win0_5.index t (1 : Fin 2) * 1024 + 1024
    omega

/-- After the run the output array is `G` of the arrays the region found. -/
theorem final (c : Dev nD) :
    (dats m 0 c).arrAt 5 cfg0.N
      = Cert.Rbf.G (V m c main_arg0) (V m c main_arg1) (V m c main_v2) (V m c main_v5) (V m c main_v6) :=
  (dats m 0 c).arrAt_eq_of_cover 5 _ (fun t _ => flushed_eq m c t) cover

/-! ## The three arrays the host wrote before the region -/

/-- The column of squared row norms: the squares summed along the features, laid out as a column. -/
abbrev sqNormCol (x : FVec Ideal S16384x256 .f32) : FVec Ideal S16384x1 .f32 :=
  broadcastInDim S16384x1 ![0] bcast_S16384_S16384x1_0
    (Host.reduceAdd (mulf x x) (constant (F := Ideal) S_ .f32 0x00000000#32) reducesTo_S16384x256_S16384_d1 h_S_)

/-- The row of squared centre norms. -/
abbrev sqNormRow (c : FVec Ideal S1024x256 .f32) : FVec Ideal S1x1024 .f32 :=
  broadcastInDim S1x1024 ![1] bcast_S1024_S1x1024_1
    (Host.reduceAdd (mulf c c) (constant (F := Ideal) S_ .f32 0x00000000#32) reducesTo_S1024x256_S1024_d1 h_S_)

/-- The widths laid out as a row. -/
abbrev widthRow (b : FVec Ideal S1024 .f32) : FVec Ideal S1x1024 .f32 :=
  broadcastInDim S1x1024 ![1] bcast_S1024_S1x1024_1 b

theorem V_sqNormCol (c : Dev nD) :
    (V m c main_v2 : S16384x1.Idx → EReal) = sqNormCol (m ((c : Thread nD τ).loc main_arg0)) := by
  dsimp only [Gen.V, Gen.hostOps0]; after_results

theorem V_sqNormRow (c : Dev nD) :
    (V m c main_v5 : S1x1024.Idx → EReal) = sqNormRow (m ((c : Thread nD τ).loc main_arg1)) := by
  dsimp only [Gen.V, Gen.hostOps0]; after_results

theorem V_widthRow (c : Dev nD) :
    (V m c main_v6 : S1x1024.Idx → EReal) = widthRow (m ((c : Thread nD τ).loc main_arg2)) := by
  dsimp only [Gen.V, Gen.hostOps0]; after_results

/-! ## The run, read -/

/-- Every weakly fair execution of the kernel program ends with the output array at `G` of the argument arrays (and of
    the norm column, norm row and width row the host makes of them), the arguments unchanged. -/
theorem run : θ_run defs (onTc (τ := τ) (main (F := Ideal))) ⟨m, fun _ => 0, ρ⟩ fun r => ∀ c : Dev nD,
      r.2.mem ((c : Thread nD τ).loc main_v7)
        = Cert.Rbf.G (m ((c : Thread nD τ).loc main_arg0)) (m ((c : Thread nD τ).loc main_arg1))
            (sqNormCol (m ((c : Thread nD τ).loc main_arg0))) (sqNormRow (m ((c : Thread nD τ).loc main_arg1)))
            (widthRow (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      rw [V_main_arg0, V_main_arg1, V_sqNormCol, V_sqNormRow, V_widthRow])), (h c).2⟩)
    (Value.run_blocks m ρ)

end Cert.KernelIdeal.RbfArray

end
-- ==== Proof.ReferenceValue.lean ====
/-
  The reference computes the layer function.

  The reference forms the same three auxiliary arrays first — the column of squared row norms (its stage 2), the row
  of squared centre norms (stage 6) and the row of widths (stage 13) — and then, at row `p` and centre `q`,
      exp ( (-β_q) · ( (‖x_p‖² + ‖c_q‖²) - 2 · Σ_d x_{p,d} · c_{q,d} ) ),
  its inner products by one contraction over the features of the whole [16384, 256] and [1024, 256] arrays. This is
  the layer function `G` of the two inputs and those three stages: the only difference in spelling is the negated
  width, `-β` here against `0 - β` there, the same extended real.
-/
import proofs.«173492_j44521630990797_1_alg».proof.Proof.Gen.ReferenceIdeal.Read
import proofs.«173492_j44521630990797_1_alg».proof.Proof.RbfSpec
import Idealize.ShloMosaic.Lib.ValueIdx
import Idealize.ShloMosaic.PureOps.Ideal.Laws

noncomputable section

open scoped BigOperators

namespace Cert.ReferenceIdeal.RbfRef

open Cert.ReferenceIdeal Cert.ReferenceIdeal.Gen Idealize.ShloMosaic Idealize.ShloMosaic.ValueIdx

/-- The reference's result is `G` of its inputs and of its own norm column, norm row and width row. -/
theorem ref_eq (x : FVec Ideal S16384x256 .f32) (c : FVec Ideal S1024x256 .f32) (b : FVec Ideal S1024 .f32) :
    Read.val_main_v17 (F := Ideal) x c b
      = Cert.Rbf.G x c (Read.val_main_v2 (F := Ideal) x) (Read.val_main_v6 (F := Ideal) c) (Read.val_main_v13 (F := Ideal) b) := by
  funext i
  obtain ⟨p, q, rfl⟩ : ∃ (p : Fin 16384) (q : Fin 1024), i = ix2 p q := ⟨i 0, i 1, eq_ix2 i⟩
  have e7 : Read.idx_main_v7 (ix2 p q) = ix2 p (0 : Fin 1) :=
    funext fun a => Fin.ext (by match a with | ⟨0, _⟩ => rfl | ⟨1, _⟩ => rfl)
  have e8 : Read.idx_main_v8 (ix2 p q) = ix2 (0 : Fin 1) q :=
    funext fun a => Fin.ext (by match a with | ⟨0, _⟩ => rfl | ⟨1, _⟩ => rfl)
  have e15 : Read.idx_main_v15 (ix2 p q) = ix2 (0 : Fin 1) q :=
    funext fun a => Fin.ext (by match a with | ⟨0, _⟩ => rfl | ⟨1, _⟩ => rfl)
  have el : ∀ k : Fin 256, Read.lidx_main_v5 (ix2 p q) k = ix2 p k := fun k =>
    funext fun a => Fin.ext (by match a with | ⟨0, _⟩ => rfl | ⟨1, _⟩ => rfl)
  have er : ∀ k : Fin 256, Read.ridx_main_v5 (ix2 p q) k = ix2 q k := fun k =>
    funext fun a => Fin.ext (by match a with | ⟨0, _⟩ => rfl | ⟨1, _⟩ => rfl)
  rw [Read.val_main_v17_apply, Read.val_main_v16_apply, Read.val_main_v15_apply, Read.val_main_v14_apply,
    Read.val_main_v12_apply, Read.val_main_v9_apply, Read.val_main_v7_apply, Read.val_main_v8_apply,
    Read.val_main_v11_apply, Read.val_main_v10_apply, Read.val_main_cst_1_apply, Read.val_main_v5_apply]
  simp only [e7, e8, e15, el, er, Ideal.hostUnary_exp_def, Ideal.mulf_def, Ideal.subf_def, Ideal.addf_def,
    Ideal.hostNegf_def, Ideal.negf_def, Ideal.ofBits_def]
  rw [Cert.Rbf.G_apply]
  unfold Cert.Rbf.rbfAt
  rw [Cert.Rbf.zero_sub_eq_neg]

end Cert.ReferenceIdeal.RbfRef

end
-- ==== Proof.lean ====
/-
  The radial basis layer: `out[b, k] = exp(-β_k · ‖x_b - c_k‖²)` with the squared distance expanded as
  `‖x_b‖² + ‖c_k‖² - 2 · ⟨x_b, c_k⟩`, over x : [16384, 256], centres c : [1024, 256], widths β : [1024].

  Both programs first form the squared norms of the rows of x (a column) and of the centres (a row) and lay the widths
  out as a row, by the same host operations. The kernel then runs 16 grid points, each on a band of 1024 data rows:
  it multiplies the band against all centres (narrowed to bf16, which changes nothing on extended reals, contracting the
  features of both operands into a zero accumulator), combines with the norms, scales by `0 - β` and exponentiates; the
  16 bands tile the output. The reference does the same on the whole arrays with one contraction and `-β`.
  Over the extended reals the two results are one function of the inputs, index by index: the inner products are the
  same sums, and `0 - β = -β` for every extended real β. No input needs to be finite for this, so the precondition is
  never opened.

  The kernel's and the idealized kernel's runs (termination, no fault, arguments unchanged) are their generated frame
  certificates; the reference's is its generated run. The kernel's idealization rewrote no operation, so there is
  nothing to preserve.
-/
import proofs.«173492_j44521630990797_1_alg».proof.Defs
import proofs.«173492_j44521630990797_1_alg».proof.Proof.Gen.Kernel
import proofs.«173492_j44521630990797_1_alg».proof.Proof.Gen.Kernel.Skeleton
import proofs.«173492_j44521630990797_1_alg».proof.Proof.Gen.Kernel.Launch
import proofs.«173492_j44521630990797_1_alg».proof.Proof.Gen.Kernel.Points
import proofs.«173492_j44521630990797_1_alg».proof.Proof.Gen.Kernel.Frame
import proofs.«173492_j44521630990797_1_alg».proof.Proof.Gen.KernelIdeal
import proofs.«173492_j44521630990797_1_alg».proof.Proof.Gen.KernelIdeal.Skeleton
import proofs.«173492_j44521630990797_1_alg».proof.Proof.Gen.KernelIdeal.Launch
import proofs.«173492_j44521630990797_1_alg».proof.Proof.Gen.KernelIdeal.Points
import proofs.«173492_j44521630990797_1_alg».proof.Proof.Gen.KernelIdeal.Frame
import proofs.«173492_j44521630990797_1_alg».proof.Proof.Gen.ReferenceIdeal
import proofs.«173492_j44521630990797_1_alg».proof.Proof.Gen.Pre_finite_inputs
import proofs.«173492_j44521630990797_1_alg».proof.Proof.Gen.KernelIdeal.Value
import proofs.«173492_j44521630990797_1_alg».proof.Proof.Gen.ReferenceIdeal.Run
import proofs.«173492_j44521630990797_1_alg».proof.Proof.Gen.ReferenceIdeal.Read
import proofs.«173492_j44521630990797_1_alg».proof.Proof.KernelArray
import proofs.«173492_j44521630990797_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs to its composed term; dropping the result leaves the frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on x, the centres and the widths, both programs end with the layer function `G` of those
    arguments in their result arrays: the kernel by its 16 row bands, the reference by its stages read at an index. The
    norm column, the norm row and the width row are the same host terms of the arguments on both sides. -/
theorem algebraic : Cert.algebraic_KernelIdeal_ReferenceIdeal := by
  intro m ρ m' ρ' _ hagree
  refine ⟨_, Cert.KernelIdeal.RbfArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RbfRef.ref_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
